-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S262144x1 : Shape := ⟨2, ![262144, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S8388608 32) (main_arg2 : FVec F S262144x1 .f32) (main_arg3 : FVec F S262144x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144x1 .f32 := Host.absf main_arg2
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S262144x1 .f32 := Host.absf main_arg3
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S8388608 : Shape := ⟨1, ![8388608]⟩
abbrev S262144x1 : Shape := ⟨2, ![262144, 1]⟩
abbrev S4096 : Shape := ⟨1, ![4096]⟩
abbrev S8192x4096 : Shape := ⟨2, ![8192, 4096]⟩
abbrev S2048x4096 : Shape := ⟨2, ![2048, 4096]⟩
abbrev S4096x64 : Shape := ⟨2, ![4096, 64]⟩
abbrev S1x4096 : Shape := ⟨2, ![1, 4096]⟩
abbrev S2048x64 : Shape := ⟨2, ![2048, 64]⟩
abbrev S256x4096 : Shape := ⟨2, ![256, 4096]⟩
abbrev S256x64 : Shape := ⟨2, ![256, 64]⟩
abbrev S256x64x64 : Shape := ⟨3, ![256, 64, 64]⟩
abbrev S256x64x1 : Shape := ⟨3, ![256, 64, 1]⟩
abbrev S4096x4096 : Shape := ⟨2, ![4096, 4096]⟩

abbrev nBuf : Space → Nat
  | .hbm => 19
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144x1, .f32⟩
  | .hbm, ⟨3, _⟩ => ⟨S262144x1, .f32⟩
  | .hbm, ⟨4, _⟩ => ⟨S4096, .f32⟩
  | .hbm, ⟨5, _⟩ => ⟨S8192x4096, .f32⟩
  | .hbm, ⟨6, _⟩ => ⟨S2048x4096, .i32⟩
  | .hbm, ⟨7, _⟩ => ⟨S4096x64, .f32⟩
  | .hbm, ⟨8, _⟩ => ⟨S4096x64, .f32⟩
  | .hbm, ⟨9, _⟩ => ⟨S1x4096, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S2048x4096, .bf16⟩
  | .hbm, ⟨15, _⟩ => ⟨S2048x4096, .bf16⟩
  | .hbm, ⟨16, _⟩ => ⟨S4096x4096, .bf16⟩
  | .hbm, ⟨17, _⟩ => ⟨S8192x4096, .f32⟩
  | .hbm, ⟨18, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .f32⟩
  | .local _ .vmem, ⟨15, _⟩ => ⟨S256x4096, .f32⟩
  | .local _ .vmem, ⟨16, _⟩ => ⟨S4096x4096, .bf16⟩
  | .local _ .vmem, ⟨17, _⟩ => ⟨S1x4096, .f32⟩
  | .local _ .vmem, ⟨18, _⟩ => ⟨S256x4096, .f32⟩
  | .local _ .vmem, ⟨19, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x2048x4096_S8192x4096 : S4x2048x4096.ShapeCasts S8192x4096
  shapeCasts_S8388608_S2048x4096 : S8388608.ShapeCasts S2048x4096
  shapeCasts_S262144x1_S4096x64 : S262144x1.ShapeCasts S4096x64
  shapeCasts_S4096_S1x4096 : S4096.ShapeCasts S1x4096
  slices_S4096x64_S2048x64_0_0 : S4096x64.Slices ![0, 0] S2048x64
  slices_S4096x64_S2048x64_2048_0 : S4096x64.Slices ![2048, 0] S2048x64
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x4096_S256x64x64 : S256x4096.ShapeCasts S256x64x64
  shapeCasts_S256x64_S256x64x1 : S256x64.ShapeCasts S256x64x1
  broadcasts_S256x64x1_S256x64x64 : S256x64x1.Broadcasts S256x64x64
  shapeCasts_S256x64x64_S256x4096 : S256x64x64.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  concatenates_S2048x4096_S2048x4096_S4096x4096_d0 : Shape.Concatenates [S2048x4096, S2048x4096] S4096x4096 0
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .i32 = 32 ∨ (Rect.block (s := S2048x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S2048x64.size a
  hwx0_1 : ∀ i : grid0.Coords, EltTy.bits .f32 = 32 ∨ (Rect.block (s := S2048x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S2048x64.size a
  hwx0_3 : ∀ i : grid0.Coords, EltTy.bits .f32 = 32 ∨ (Rect.block (s := S2048x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S2048x64.size a
  hwx0_4 : ∀ i : grid0.Coords, EltTy.bits .f32 = 32 ∨ (Rect.block (s := S2048x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S2048x4096.size a
  hwx0_5 : ∀ i : grid0.Coords, EltTy.bits .bf16 = 32 ∨ (Rect.block (s := S2048x4096) S256x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S2048x4096.size a
  hwx0_6 : ∀ i : grid0.Coords, EltTy.bits .bf16 = 32 ∨ (Rect.block (s := S2048x4096) S256x4096.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x4096.size a
  hwx1_3 : ∀ i : grid1.Coords, EltTy.bits .f32 = 32 ∨ (Rect.block (s := S8192x4096) S256x4096.size (cc1_transform_3 i) (hinb1_3 i)).WholeWords (EltTy.packing .f32)

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S256x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S8388608 : Shape := ⟨1, ![8388608]⟩
abbrev S262144x1 : Shape := ⟨2, ![262144, 1]⟩
abbrev S4096 : Shape := ⟨1, ![4096]⟩
abbrev S_ : Shape := ⟨0, ![]⟩
abbrev S16777216 : Shape := ⟨1, ![16777216]⟩
abbrev S262144x64 : Shape := ⟨2, ![262144, 64]⟩
abbrev S4096x4096 : Shape := ⟨2, ![4096, 4096]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144x1, .f32⟩
  | .hbm, ⟨3, _⟩ => ⟨S262144x1, .f32⟩
  | .hbm, ⟨4, _⟩ => ⟨S4096, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S16777216, .i32⟩
  | .hbm, ⟨15, _⟩ => ⟨S16777216, .f32⟩
  | .hbm, ⟨16, _⟩ => ⟨S262144x64, .f32⟩
  | .hbm, ⟨17, _⟩ => ⟨S262144x64, .f32⟩
  | .hbm, ⟨18, _⟩ => ⟨S262144x64, .f32⟩
  | .hbm, ⟨19, _⟩ => ⟨S262144x64, .f32⟩
  | .hbm, ⟨20, _⟩ => ⟨S262144x64, .f32⟩
  | .hbm, ⟨21, _⟩ => ⟨S4096x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  concatenates_S8388608_S8388608_S16777216_d0 : Shape.Concatenates [S8388608, S8388608] S16777216 0
  shapeCasts_S16777216_S262144x64 : S16777216.ShapeCasts S262144x64
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  What both programs compute, written once over the argument arrays.

  A packed word `wq[p]` carries two 4-bit codes: its bits 4..7 (the arithmetic shift by 4, then the
  mask 15) and its bits 0..3 (the mask 15).  The 16 777 216 codes — first every word's high code, then
  every word's low code — are laid out row-major as a 4096 × 4096 matrix, so entry (n, k) is the high
  code of word n·4096 + k when n < 2048 and the low code of word (n − 2048)·4096 + k otherwise.  Codes
  are grouped 64 at a time along the flat order: entry (n, k) belongs to group n·64 + k / 64, and the
  weight is (code − zero[group]) · scale[group].  The result is x · Wᵀ + bias: at (b, s, o) the sum
  over k of x[b, s, k] · W[o, k], plus bias[o].  Every operation is the exact one on the extended
  reals; nothing here needs the inputs finite.

  The intermediate arrays are named too: the two halves of W as the first launch leaves them
  (`hiHalf`, `loHalf`, over the reshaped words and the sliced scale and zero tables) and the product
  as the second launch leaves it (`product`, over the flattened x, the joined weight and the bias row).
-/
import Idealize.ShloMosaic.PureOps.Ideal
import Idealize.ShloMosaic.Lib.ValueIdx

noncomputable section

namespace Cert.Spec

open Idealize.ShloMosaic Idealize.ShloMosaic.ValueIdx

/-! ## The whole result over the arguments -/

/-- The 4-bit code at row `n`, column `k` of the unpacked matrix. -/
def code (wq : (⟨1, ![8388608]⟩ : Shape).Idx → BitVec 32) (n k : Fin 4096) : BitVec 32 :=
  if h : n.val < 2048 then
    IntOp.andi (IntOp.shrsi .host (wq (ix1 (⟨n.val * 4096 + k.val, by have := k.isLt; omega⟩ : Fin 8388608))) 4#32) 15#32
  else
    IntOp.andi (wq (ix1 (⟨(n.val - 2048) * 4096 + k.val, by have := k.isLt; have := n.isLt; omega⟩ : Fin 8388608))) 15#32

/-- The group of 64 consecutive codes that entry (n, k) falls in. -/
def group (n k : Fin 4096) : Fin 262144 := ⟨n.val * 64 + k.val / 64, by have := k.isLt; have := n.isLt; omega⟩

/-- The dequantized weight at (n, k). -/
def weight (wq : (⟨1, ![8388608]⟩ : Shape).Idx → BitVec 32) (scale zero : (⟨2, ![262144, 1]⟩ : Shape).Idx → EReal)
    (n k : Fin 4096) : EReal :=
  (FloatOps.sitofp (F := Ideal) .f32 (code wq n k) - zero (ix2 (group n k) (0 : Fin 1))) * scale (ix2 (group n k) (0 : Fin 1))

/-- The result at (b, s, o). -/
def outAt (x : (⟨3, ![4, 2048, 4096]⟩ : Shape).Idx → EReal) (wq : (⟨1, ![8388608]⟩ : Shape).Idx → BitVec 32)
    (scale zero : (⟨2, ![262144, 1]⟩ : Shape).Idx → EReal) (bias : (⟨1, ![4096]⟩ : Shape).Idx → EReal)
    (b : Fin 4) (s : Fin 2048) (o : Fin 4096) : EReal :=
  (∑ k : Fin 4096, x (ix3 b s k) * weight wq scale zero o k) + bias (ix1 o)

/-- The result array. -/
def out (x : (⟨3, ![4, 2048, 4096]⟩ : Shape).Idx → EReal) (wq : (⟨1, ![8388608]⟩ : Shape).Idx → BitVec 32)
    (scale zero : (⟨2, ![262144, 1]⟩ : Shape).Idx → EReal) (bias : (⟨1, ![4096]⟩ : Shape).Idx → EReal) :
    (⟨3, ![4, 2048, 4096]⟩ : Shape).Idx → EReal :=
  fun i => outAt x wq scale zero bias (i 0) (i 1) (i 2)

/-! ## The arrays between the two launches -/

/-- The column group of column `k` within a row of 4096 codes. -/
def colGroup (k : Fin 4096) : Fin 64 := ⟨k.val / 64, by have := k.isLt; omega⟩

/-- Rows 0..2047 of W: the high codes of the words laid out 2048 × 4096, against the first 2048 rows of
    the scale and zero tables laid out 4096 × 64. -/
def hiHalf (q : (⟨2, ![2048, 4096]⟩ : Shape).Idx → BitVec 32) (sc zr : (⟨2, ![2048, 64]⟩ : Shape).Idx → EReal) :
    (⟨2, ![2048, 4096]⟩ : Shape).Idx → EReal :=
  fun j => (FloatOps.sitofp (F := Ideal) .f32 (IntOp.andi (IntOp.shrsi .vector (q j) 4#32) 15#32)
      - zr (ix2 (j 0) (colGroup (j 1)))) * sc (ix2 (j 0) (colGroup (j 1)))

/-- Rows 2048..4095 of W: the low codes, against the last 2048 rows of the tables. -/
def loHalf (q : (⟨2, ![2048, 4096]⟩ : Shape).Idx → BitVec 32) (sc zr : (⟨2, ![2048, 64]⟩ : Shape).Idx → EReal) :
    (⟨2, ![2048, 4096]⟩ : Shape).Idx → EReal :=
  fun j => (FloatOps.sitofp (F := Ideal) .f32 (IntOp.andi (q j) 15#32)
      - zr (ix2 (j 0) (colGroup (j 1)))) * sc (ix2 (j 0) (colGroup (j 1)))

/-- x · Wᵀ + bias over the flattened tokens: at (r, o) the sum over k of X[r, k] · W[o, k], plus B[0, o]. -/
def product (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun j => (∑ k : Fin 4096, X (ix2 (j 0) k) * W (ix2 (j 1) k)) + B (ix2 (0 : Fin 1) (j 1))

end Cert.Spec

end
-- ==== Proof.DequantValue.lean ====
/-
  The first launch: 8 grid points, point t taking rows 256·t … 256·t + 255 of the packed words laid out
  2048 × 4096 and of the four 2048 × 64 tables (scale and zero point of the high rows, then of the low rows).
  Per word the body takes the high code (shift right by 4, mask 15) and the low code (mask 15) as numbers,
  views a row of 4096 as 64 groups of 64, subtracts the group's zero point and multiplies by the group's
  scale; the narrowing to bf16 is the identity at the ideal instance.  The 8 blocks tile each output, so
  after the launch the two outputs are `Spec.hiHalf` and `Spec.loHalf` of the arrays the launch was handed.
-/
import proofs.«409103_j2241972929044_3_alg».proof.Proof.Gen.KernelIdeal.Frame
import proofs.«409103_j2241972929044_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Dequant

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The layout operations of the body, read at an index -/

section Layout
variable {α : Type}

/-- A row of 4096 viewed as 64 groups of 64: entry (p, g, l) is entry (p, 64·g + l). -/
theorem split_cols_apply (v : S256x4096.Idx → α) (h : S256x4096.ShapeCasts S256x64x64)
    (p : Fin 256) (g l : Fin 64) (q : Fin 4096) (hq : q.val = g.val * 64 + l.val) :
    shapeCast S256x64x64 v h (ix3 p g l) = v (ix2 p q) :=
  shapeCast_apply v h _ _ (by
    rw [Shape.rowMajor_val_three, Shape.rowMajor_val_two]
    show p.val * 4096 + q.val = (p.val * 64 + g.val) * 64 + l.val
    omega)

/-- 64 groups of 64 viewed as one row of 4096: entry (p, q) is entry (p, q / 64, q % 64). -/
theorem join_cols_apply (v : S256x64x64.Idx → α) (h : S256x64x64.ShapeCasts S256x4096)
    (p : Fin 256) (q : Fin 4096) (g l : Fin 64) (hq : q.val = g.val * 64 + l.val) :
    shapeCast S256x4096 v h (ix2 p q) = v (ix3 p g l) :=
  shapeCast_apply v h _ _ (by
    rw [Shape.rowMajor_val_three, Shape.rowMajor_val_two]
    show (p.val * 64 + g.val) * 64 + l.val = p.val * 4096 + q.val
    omega)

/-- A table with one entry per group, given a trailing unit axis: entry (p, g, 0) is entry (p, g). -/
theorem unit_col_apply (v : S256x64.Idx → α) (h : S256x64.ShapeCasts S256x64x1)
    (p : Fin 256) (g : Fin 64) (u : Fin 1) :
    shapeCast S256x64x1 v h (ix3 p g u) = v (ix2 p g) :=
  shapeCast_apply v h _ _ (by
    have hu : u.val = 0 := by omega
    rw [Shape.rowMajor_val_three, Shape.rowMajor_val_two]
    show p.val * 64 + g.val = (p.val * 64 + g.val) * 1 + u.val
    omega)

/-- The group's one entry repeated along the group: entry (p, g, l) is entry (p, g, 0). -/
theorem spread_col_apply (v : S256x64x1.Idx → α) (h : S256x64x1.Broadcasts S256x64x64)
    (p : Fin 256) (g l : Fin 64) :
    broadcastTo S256x64x64 v h (ix3 p g l) = v (ix3 p g (0 : Fin 1)) := by
  refine broadcastTo_apply v h (ix3 p g l) (ix3 p g (0 : Fin 1)) fun ax => ?_
  match ax with
  | ⟨0, _⟩ => rfl
  | ⟨1, _⟩ => rfl
  | ⟨2, _⟩ => rfl

end Layout

/-! ## The body's two stored values, read at an index -/

/-- The column group of column `q` of a 4096-wide block row. -/
abbrev grp (q : Fin 4096) : Fin 64 := ⟨q.val / 64, by have := q.isLt; omega⟩

/-- The position of column `q` inside its group. -/
abbrev lane (q : Fin 4096) : Fin 64 := ⟨q.val % 64, Nat.mod_lt _ (by decide)⟩

theorem grp_lane (q : Fin 4096) : q.val = (grp q).val * 64 + (lane q).val := by
  show q.val = q.val / 64 * 64 + q.val % 64
  omega

/-- The high-code value at (p, q): the word's bits 4..7 as a number, minus the group's zero, times the group's scale. -/
theorem hi_pay_apply (x0 : Vec Ideal S256x4096 .i32) (x1 x2 : Vec Ideal S256x64 .f32) (p : Fin 256) (q : Fin 4096) :
    k0_pay2 x0 x1 x2 (ix2 p q)
      = (FloatOps.sitofp (F := Ideal) .f32 (IntOp.andi (IntOp.shrsi .vector (x0 (ix2 p q)) 4#32) 15#32)
          - x2 (ix2 p (grp q))) * x1 (ix2 p (grp q)) := by
  unfold k0_pay2 k0_pay1
  rw [truncf_apply, join_cols_apply _ _ p q (grp q) (lane q) (grp_lane q), mulf_apply, subf_apply,
    split_cols_apply _ _ p (grp q) (lane q) q (grp_lane q),
    spread_col_apply, spread_col_apply, unit_col_apply, unit_col_apply,
    shapeCast_self, shapeCast_self, shapeCast_self]
  rfl

/-- The low-code value at (p, q): the word's bits 0..3 as a number, minus the group's zero, times the group's scale. -/
theorem lo_pay_apply (x0 : Vec Ideal S256x4096 .i32) (x3 x4 : Vec Ideal S256x64 .f32) (p : Fin 256) (q : Fin 4096) :
    k0_pay3 x0 x3 x4 (ix2 p q)
      = (FloatOps.sitofp (F := Ideal) .f32 (IntOp.andi (x0 (ix2 p q)) 15#32)
          - x4 (ix2 p (grp q))) * x3 (ix2 p (grp q)) := by
  unfold k0_pay3 k0_pay1
  rw [truncf_apply, join_cols_apply _ _ p q (grp q) (lane q) (grp_lane q), mulf_apply, subf_apply,
    split_cols_apply _ _ p (grp q) (lane q) q (grp_lane q),
    spread_col_apply, spread_col_apply, unit_col_apply, unit_col_apply,
    shapeCast_self, shapeCast_self, shapeCast_self]
  rfl

/-! ## From the blocks to the arrays -/

variable (V : (c : Dev nD) → (b : Ref sig .tc) → Buf (Elt Ideal) ((c : Thread nD τ).loc b))

/-- The zero offsets of the body's whole-buffer loads and stores, as a constant function. -/
theorem zero_off : (![0, 0] : Fin 2 → Nat) = fun _ => 0 :=
  funext fun a => match a with | ⟨0, _⟩ => rfl | ⟨1, _⟩ => rfl

/-- Every window of the launch is at block row `t`, block column 0, at grid point `t`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What grid point `t` writes back to the high half is block `t` of the high half's closed form. -/
theorem hi_flushed (c : Dev nD) (t : Fin cfg0.N) :
    (dat0 (F := Ideal) V c).flushed 5 t
      = ((cfg0.win 5).blk t).view.read (Elt Ideal) (Cert.Spec.hiHalf (V c main_v1) (V c main_v5) (V c main_v7)) := by
  show (cfg0.win 5).cut (grid0.coords t) ((dat0 V c).after 5 t) = _
  rw [after0_5]
  unfold out0_5
  rw [View.canon_unit_zero zero_off]
  simp only [View.ld_unit_zero (S := S256x4096) zero_off, View.ld_unit_zero (S := S256x64) zero_off]
  funext j
  obtain ⟨p, q, rfl⟩ : ∃ (p : Fin 256) (q : Fin 4096), j = ix2 p q := ⟨j 0, j 1, eq_ix2 j⟩
  show k0_pay2 (iblk0 V c 0 t) (iblk0 V c 1 t) (iblk0 V c 2 t) (ix2 p q)
      = Cert.Spec.hiHalf (V c main_v1) (V c main_v5) (V c main_v7) (((cfg0.win 5).blk t).view.emb (ix2 p q))
  refine (hi_pay_apply _ _ _ p q).trans ?_
  obtain ⟨e00, e01, e10, e11, e20, e21, e30, e31, e40, e41, e50, e51, e60, e61⟩ := block_index t
  have hp : p.val < 256 := p.isLt
  have hq : q.val < 4096 := q.isLt
  have h0 : ((cfg0.win 0).blk t).view.emb (ix2 p q) = ((cfg0.win 5).blk t).view.emb (ix2 p q) := by
    funext a; apply Fin.ext
    match a with
    | ⟨0, _⟩ => show win0_0.index t (0 : Fin 2) * 256 + 1 * p.val = win0_5.index t (0 : Fin 2) * 256 + 1 * p.val; omega
    | ⟨1, _⟩ => show win0_0.index t (1 : Fin 2) * 4096 + 1 * q.val = win0_5.index t (1 : Fin 2) * 4096 + 1 * q.val; omega
  have h1 : ((cfg0.win 1).blk t).view.emb (ix2 p (grp q))
      = ix2 ((((cfg0.win 5).blk t).view.emb (ix2 p q)) 0) (Cert.Spec.colGroup ((((cfg0.win 5).blk t).view.emb (ix2 p q)) 1)) := by
    funext a; apply Fin.ext
    match a with
    | ⟨0, _⟩ => show win0_1.index t (0 : Fin 2) * 256 + 1 * p.val = win0_5.index t (0 : Fin 2) * 256 + 1 * p.val; omega
    | ⟨1, _⟩ => show win0_1.index t (1 : Fin 2) * 64 + 1 * (q.val / 64) = (win0_5.index t (1 : Fin 2) * 4096 + 1 * q.val) / 64; omega
  have h2 : ((cfg0.win 2).blk t).view.emb (ix2 p (grp q))
      = ix2 ((((cfg0.win 5).blk t).view.emb (ix2 p q)) 0) (Cert.Spec.colGroup ((((cfg0.win 5).blk t).view.emb (ix2 p q)) 1)) := by
    funext a; apply Fin.ext
    match a with
    | ⟨0, _⟩ => show win0_2.index t (0 : Fin 2) * 256 + 1 * p.val = win0_5.index t (0 : Fin 2) * 256 + 1 * p.val; omega
    | ⟨1, _⟩ => show win0_2.index t (1 : Fin 2) * 64 + 1 * (q.val / 64) = (win0_5.index t (1 : Fin 2) * 4096 + 1 * q.val) / 64; omega
  show (FloatOps.sitofp (F := Ideal) .f32 (IntOp.andi (IntOp.shrsi .vector (V c main_v1 (((cfg0.win 0).blk t).view.emb (ix2 p q))) 4#32) 15#32)
        - V c main_v7 (((cfg0.win 2).blk t).view.emb (ix2 p (grp q)))) * V c main_v5 (((cfg0.win 1).blk t).view.emb (ix2 p (grp q)))
      = (FloatOps.sitofp (F := Ideal) .f32 (IntOp.andi (IntOp.shrsi .vector (V c main_v1 (((cfg0.win 5).blk t).view.emb (ix2 p q))) 4#32) 15#32)
        - V c main_v7 (ix2 ((((cfg0.win 5).blk t).view.emb (ix2 p q)) 0) (Cert.Spec.colGroup ((((cfg0.win 5).blk t).view.emb (ix2 p q)) 1))))
        * V c main_v5 (ix2 ((((cfg0.win 5).blk t).view.emb (ix2 p q)) 0) (Cert.Spec.colGroup ((((cfg0.win 5).blk t).view.emb (ix2 p q)) 1)))
  rw [h0, h1, h2]
  rfl

/-- An index of the array is in point `t`'s block of the high half iff each coordinate is in the block's range. -/
theorem hi_mem_blk (t : Fin cfg0.N) (i : S2048x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v9_0).slice (win0_5.rect t)).set ↔ _
  rw [View.set_slice_whole, Rect.mem_set_unit]
  exact Iff.rfl

/-- Row `r` of the high half is written at grid point `r / 256`. -/
theorem hi_cover (i : S2048x4096.Idx) :
    ∃ t : Fin cfg0.N, (cfg0.win 5).flush t = true ∧ i ∈ ((cfg0.win 5).blk t).view.set := by
  have hi0 : (i 0).val < 2048 := (i 0).isLt
  have hi1 : (i 1).val < 4096 := (i 1).isLt
  obtain ⟨t, ht⟩ : ∃ t : Fin cfg0.N, t.val = (i 0).val / 256 :=
    ⟨⟨(i 0).val / 256, by show (i 0).val / 256 < 8; omega⟩, rfl⟩
  obtain ⟨e00, e01, e10, e11, e20, e21, e30, e31, e40, e41, e50, e51, e60, e61⟩ := block_index t
  refine ⟨t, flush0_5 t, ?_⟩
  rw [hi_mem_blk]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 4096 ≤ (i 1).val ∧ (i 1).val < win0_5.index t (1 : Fin 2) * 4096 + 4096
    omega

theorem hi_final (c : Dev nD) :
    (dat0 (F := Ideal) V c).arrAt 5 cfg0.N = Cert.Spec.hiHalf (V c main_v1) (V c main_v5) (V c main_v7) :=
  (dat0 (F := Ideal) V c).arrAt_eq_of_cover 5 _ (fun t _ => hi_flushed V c t) hi_cover

/-- What grid point `t` writes back to the low half is block `t` of the low half's closed form. -/
theorem lo_flushed (c : Dev nD) (t : Fin cfg0.N) :
    (dat0 (F := Ideal) V c).flushed 6 t
      = ((cfg0.win 6).blk t).view.read (Elt Ideal) (Cert.Spec.loHalf (V c main_v1) (V c main_v6) (V c main_v8)) := by
  show (cfg0.win 6).cut (grid0.coords t) ((dat0 V c).after 6 t) = _
  rw [after0_6]
  unfold out0_6
  rw [View.canon_unit_zero zero_off]
  simp only [View.ld_unit_zero (S := S256x4096) zero_off, View.ld_unit_zero (S := S256x64) zero_off]
  funext j
  obtain ⟨p, q, rfl⟩ : ∃ (p : Fin 256) (q : Fin 4096), j = ix2 p q := ⟨j 0, j 1, eq_ix2 j⟩
  show k0_pay3 (iblk0 V c 0 t) (iblk0 V c 3 t) (iblk0 V c 4 t) (ix2 p q)
      = Cert.Spec.loHalf (V c main_v1) (V c main_v6) (V c main_v8) (((cfg0.win 6).blk t).view.emb (ix2 p q))
  refine (lo_pay_apply _ _ _ p q).trans ?_
  obtain ⟨e00, e01, e10, e11, e20, e21, e30, e31, e40, e41, e50, e51, e60, e61⟩ := block_index t
  have hp : p.val < 256 := p.isLt
  have hq : q.val < 4096 := q.isLt
  have h0 : ((cfg0.win 0).blk t).view.emb (ix2 p q) = ((cfg0.win 6).blk t).view.emb (ix2 p q) := by
    funext a; apply Fin.ext
    match a with
    | ⟨0, _⟩ => show win0_0.index t (0 : Fin 2) * 256 + 1 * p.val = win0_6.index t (0 : Fin 2) * 256 + 1 * p.val; omega
    | ⟨1, _⟩ => show win0_0.index t (1 : Fin 2) * 4096 + 1 * q.val = win0_6.index t (1 : Fin 2) * 4096 + 1 * q.val; omega
  have h3 : ((cfg0.win 3).blk t).view.emb (ix2 p (grp q))
      = ix2 ((((cfg0.win 6).blk t).view.emb (ix2 p q)) 0) (Cert.Spec.colGroup ((((cfg0.win 6).blk t).view.emb (ix2 p q)) 1)) := by
    funext a; apply Fin.ext
    match a with
    | ⟨0, _⟩ => show win0_3.index t (0 : Fin 2) * 256 + 1 * p.val = win0_6.index t (0 : Fin 2) * 256 + 1 * p.val; omega
    | ⟨1, _⟩ => show win0_3.index t (1 : Fin 2) * 64 + 1 * (q.val / 64) = (win0_6.index t (1 : Fin 2) * 4096 + 1 * q.val) / 64; omega
  have h4 : ((cfg0.win 4).blk t).view.emb (ix2 p (grp q))
      = ix2 ((((cfg0.win 6).blk t).view.emb (ix2 p q)) 0) (Cert.Spec.colGroup ((((cfg0.win 6).blk t).view.emb (ix2 p q)) 1)) := by
    funext a; apply Fin.ext
    match a with
    | ⟨0, _⟩ => show win0_4.index t (0 : Fin 2) * 256 + 1 * p.val = win0_6.index t (0 : Fin 2) * 256 + 1 * p.val; omega
    | ⟨1, _⟩ => show win0_4.index t (1 : Fin 2) * 64 + 1 * (q.val / 64) = (win0_6.index t (1 : Fin 2) * 4096 + 1 * q.val) / 64; omega
  show (FloatOps.sitofp (F := Ideal) .f32 (IntOp.andi (V c main_v1 (((cfg0.win 0).blk t).view.emb (ix2 p q))) 15#32)
        - V c main_v8 (((cfg0.win 4).blk t).view.emb (ix2 p (grp q)))) * V c main_v6 (((cfg0.win 3).blk t).view.emb (ix2 p (grp q)))
      = (FloatOps.sitofp (F := Ideal) .f32 (IntOp.andi (V c main_v1 (((cfg0.win 6).blk t).view.emb (ix2 p q))) 15#32)
        - V c main_v8 (ix2 ((((cfg0.win 6).blk t).view.emb (ix2 p q)) 0) (Cert.Spec.colGroup ((((cfg0.win 6).blk t).view.emb (ix2 p q)) 1))))
        * V c main_v6 (ix2 ((((cfg0.win 6).blk t).view.emb (ix2 p q)) 0) (Cert.Spec.colGroup ((((cfg0.win 6).blk t).view.emb (ix2 p q)) 1)))
  rw [h0, h3, h4]
  rfl

/-- An index of the array is in point `t`'s block of the low half iff each coordinate is in the block's range. -/
theorem lo_mem_blk (t : Fin cfg0.N) (i : S2048x4096.Idx) :
    i ∈ ((cfg0.win 6).blk t).view.set ↔ ∀ a : Fin 2, win0_6.index t a * S256x4096.size a ≤ (i a).val
      ∧ (i a).val < win0_6.index t a * S256x4096.size a + S256x4096.size a := by
  show i ∈ ((View.whole main_v9_1).slice (win0_6.rect t)).set ↔ _
  rw [View.set_slice_whole, Rect.mem_set_unit]
  exact Iff.rfl

/-- Row `r` of the low half is written at grid point `r / 256`. -/
theorem lo_cover (i : S2048x4096.Idx) :
    ∃ t : Fin cfg0.N, (cfg0.win 6).flush t = true ∧ i ∈ ((cfg0.win 6).blk t).view.set := by
  have hi0 : (i 0).val < 2048 := (i 0).isLt
  have hi1 : (i 1).val < 4096 := (i 1).isLt
  obtain ⟨t, ht⟩ : ∃ t : Fin cfg0.N, t.val = (i 0).val / 256 :=
    ⟨⟨(i 0).val / 256, by show (i 0).val / 256 < 8; omega⟩, rfl⟩
  obtain ⟨e00, e01, e10, e11, e20, e21, e30, e31, e40, e41, e50, e51, e60, e61⟩ := block_index t
  refine ⟨t, flush0_6 t, ?_⟩
  rw [lo_mem_blk]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 4096 ≤ (i 1).val ∧ (i 1).val < win0_6.index t (1 : Fin 2) * 4096 + 4096
    omega

theorem lo_final (c : Dev nD) :
    (dat0 (F := Ideal) V c).arrAt 6 cfg0.N = Cert.Spec.loHalf (V c main_v1) (V c main_v6) (V c main_v8) :=
  (dat0 (F := Ideal) V c).arrAt_eq_of_cover 6 _ (fun t _ => lo_flushed V c t) lo_cover

end Cert.KernelIdeal.Dequant

end
-- ==== Proof.MatmulValue.lean ====
/-
  The second launch: 32 grid points, point t taking rows 256·t … 256·t + 255 of the flattened tokens X
  (8192 × 4096), the whole joined weight W (4096 × 4096) and the bias row B (1 × 4096), and writing rows
  256·t … 256·t + 255 of the output.  At the ideal instance the narrowing of X to bf16 is the identity and
  the matrix unit's product into a zero accumulator is the plain sum over the contracted axis, so the
  body stores, at (p, q) of its block, Σ_k X[256·t + p, k] · W[q, k] + B[0, q].  The 32 blocks tile the
  output, so after the launch the output array is `Spec.product X W B`.
-/
import proofs.«409103_j2241972929044_3_alg».proof.Proof.Gen.KernelIdeal.Frame
import proofs.«409103_j2241972929044_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Matmul

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The body's stored value at an index of its block -/

/-- Output axis 0 is the left operand's free axis. -/
theorem lhs_axis0 (i : S256x4096.Idx) (q : dot_S256x4096_S4096x4096_S256x4096_1_1_0_0_n_n.contr.Idx) :
    (dot_S256x4096_S4096x4096_S256x4096_1_1_0_0_n_n.lhsIdx i q 0).val = (i 0).val := by
  unfold DotDims.lhsIdx
  rw [dif_neg (show ¬(0 : Fin S256x4096.rank) ∈ dot_S256x4096_S4096x4096_S256x4096_1_1_0_0_n_n.lhsBatch by decide), dif_pos (show (0 : Fin S256x4096.rank) ∈ dot_S256x4096_S4096x4096_S256x4096_1_1_0_0_n_n.lhsNonContracting by decide)]
  rfl
/-- The left operand's axis 1 is contracted. -/
theorem lhs_axis1 (i : S256x4096.Idx) (q : dot_S256x4096_S4096x4096_S256x4096_1_1_0_0_n_n.contr.Idx) :
    (dot_S256x4096_S4096x4096_S256x4096_1_1_0_0_n_n.lhsIdx i q 1).val = (q ⟨0, by decide⟩).val :=
  dot_S256x4096_S4096x4096_S256x4096_1_1_0_0_n_n.lhsIdx_val_of_single rfl i q
/-- Output axis 1 is the right operand's free axis, its axis 0. -/
theorem rhs_axis0 (i : S256x4096.Idx) (q : dot_S256x4096_S4096x4096_S256x4096_1_1_0_0_n_n.contr.Idx) :
    (dot_S256x4096_S4096x4096_S256x4096_1_1_0_0_n_n.rhsIdx i q 0).val = (i 1).val := by
  unfold DotDims.rhsIdx
  rw [dif_neg (show ¬(0 : Fin S4096x4096.rank) ∈ dot_S256x4096_S4096x4096_S256x4096_1_1_0_0_n_n.rhsBatch by decide), dif_pos (show (0 : Fin S4096x4096.rank) ∈ dot_S256x4096_S4096x4096_S256x4096_1_1_0_0_n_n.rhsNonContracting by decide)]
  rfl
/-- The right operand's axis 1 is contracted. -/
theorem rhs_axis1 (i : S256x4096.Idx) (q : dot_S256x4096_S4096x4096_S256x4096_1_1_0_0_n_n.contr.Idx) :
    (dot_S256x4096_S4096x4096_S256x4096_1_1_0_0_n_n.rhsIdx i q 1).val = (q ⟨0, by decide⟩).val :=
  dot_S256x4096_S4096x4096_S256x4096_1_1_0_0_n_n.rhsIdx_val_of_single rfl i q

/-- The matrix unit's product into the zero accumulator, at (p, q): the sum over k of the left operand at (p, k)
    times the right operand at (q, k). -/
theorem matmul_at (l : FVec Ideal S256x4096 .bf16) (r : FVec Ideal S4096x4096 .bf16) (p : Fin 256) (q : Fin 4096) :
    matmul dot_S256x4096_S4096x4096_S256x4096_1_1_0_0_n_n none l r (constant (F := Ideal) S256x4096 .f32 0x00000000#32) (ix2 p q)
      = ∑ k : Fin 4096, l (ix2 p k) * r (ix2 q k) := by
  simp only [matmul]
  rw [Ideal.matmul_constant_zero_apply, ← Equiv.sum_comp (ValueIdx.contrEquiv1 dot_S256x4096_S4096x4096_S256x4096_1_1_0_0_n_n 4096 rfl rfl).symm]
  refine Finset.sum_congr rfl fun k _ => ?_
  have hk := ValueIdx.contrEquiv1_symm_val dot_S256x4096_S4096x4096_S256x4096_1_1_0_0_n_n 4096 rfl rfl k
  have el : dot_S256x4096_S4096x4096_S256x4096_1_1_0_0_n_n.lhsIdx (ix2 p q) ((ValueIdx.contrEquiv1 dot_S256x4096_S4096x4096_S256x4096_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S256x4096_S4096x4096_S256x4096_1_1_0_0_n_n.rhsIdx (ix2 p q) ((ValueIdx.contrEquiv1 dot_S256x4096_S4096x4096_S256x4096_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The bias row spread down the 256 rows, at (p, q): the row's entry q. -/
theorem bias_at (b : FVec Ideal S1x4096 .f32) (p : Fin 256) (q : Fin 4096) :
    broadcastTo S256x4096 b broadcasts_S1x4096_S256x4096 (ix2 p q) = b (ix2 (0 : Fin 1) q) :=
  broadcastTo_apply b broadcasts_S1x4096_S256x4096 (ix2 p q) (ix2 (0 : Fin 1) q) (fun a => by
    match a with
    | ⟨0, _⟩ => show 0 = if (1 : Nat) = 1 then 0 else _; rw [if_pos rfl]
    | ⟨1, _⟩ => show q.val = if (4096 : Nat) = 1 then 0 else q.val; rw [if_neg (by decide)])

/-- What the body stores, at (p, q) of its block, from the three blocks it loads. -/
theorem stored_at (x0 : Vec Ideal S256x4096 .f32) (x1 : Vec Ideal S4096x4096 .bf16) (x2 : Vec Ideal S1x4096 .f32)
    (p : Fin 256) (q : Fin 4096) :
    k1_pay1 (F := Ideal) x0 x1 x2 (ix2 p q) = (∑ k : Fin 4096, x0 (ix2 p k) * x1 (ix2 q k)) + x2 (ix2 (0 : Fin 1) q) := by
  unfold k1_pay1
  rw [addf_apply, shapeCast_self, shapeCast_self, shapeCast_self, matmul_at, bias_at]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the token window and the output window move down one block of 256 rows per
    point; the weight and the bias row stay at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row of the output is some point's. -/
theorem index_onto : ∀ q0 : Fin 32, ∃ t : Fin cfg1.N, t.val = q0.val :=
  (by decide +kernel : ∀ q0 : Fin 32, ∃ t : Fin grid1.N, t.val = q0.val)

theorem point_lt (t : Fin cfg1.N) : t.val < 32 := t.isLt

/-- The token block at point t, at (p, k): the flattened tokens at row 256·t + p. -/
theorem tokens_block (c : Dev nD) (t : Fin cfg1.N) (p : Fin 256) (k : Fin 4096) :
    iblk1 V c 0 t (ix2 p k) = V c main_v0 (ix2 (⟨t.val * 256 + p.val, by have := point_lt t; have := p.isLt; omega⟩ : Fin 8192) k) := by
  obtain ⟨e0, e1, -⟩ := index_facts t
  show V c main_v0 (((cfg1.win 0).blk t).view.emb (ix2 p k)) = _
  refine congrArg (V c main_v0) (funext fun a => Fin.ext ?_)
  match a with
  | ⟨0, _⟩ => show win1_0.index t (0 : Fin 2) * 256 + 1 * p.val = t.val * 256 + p.val; rw [e0]; omega
  | ⟨1, _⟩ => show win1_0.index t (1 : Fin 2) * 4096 + 1 * k.val = k.val; rw [e1]; omega

/-- The weight block is the whole weight. -/
theorem weight_block (c : Dev nD) (t : Fin cfg1.N) (q k : Fin 4096) :
    iblk1 V c 1 t (ix2 q k) = V c main_v10 (ix2 q k) := by
  obtain ⟨-, -, e2, e3, -⟩ := index_facts t
  show V c main_v10 (((cfg1.win 1).blk t).view.emb (ix2 q k)) = _
  refine congrArg (V c main_v10) (funext fun a => Fin.ext ?_)
  match a with
  | ⟨0, _⟩ => show win1_1.index t (0 : Fin 2) * 4096 + 1 * q.val = q.val; rw [e2]; omega
  | ⟨1, _⟩ => show win1_1.index t (1 : Fin 2) * 4096 + 1 * k.val = k.val; rw [e3]; omega

/-- The bias block is the whole bias row. -/
theorem bias_block (c : Dev nD) (t : Fin cfg1.N) (q : Fin 4096) :
    iblk1 V c 2 t (ix2 (0 : Fin 1) q) = V c main_v4 (ix2 (0 : Fin 1) q) := by
  obtain ⟨-, -, -, -, e4, e5, -⟩ := index_facts t
  show V c main_v4 (((cfg1.win 2).blk t).view.emb (ix2 (0 : Fin 1) q)) = _
  refine congrArg (V c main_v4) (funext fun a => Fin.ext ?_)
  match a with
  | ⟨0, _⟩ => show win1_2.index t (0 : Fin 2) * 1 + 1 * 0 = 0; rw [e4]
  | ⟨1, _⟩ => show win1_2.index t (1 : Fin 2) * 4096 + 1 * q.val = q.val; rw [e5]; omega

/-- What point t writes back is block t of the product. -/
theorem flushed_eq (c : Dev nD) (t : Fin cfg1.N) :
    (dat1 (F := Ideal) V c).flushed 3 t
      = ((cfg1.win 3).blk t).view.read (Elt Ideal) (Cert.Spec.product (V c main_v0) (V c main_v10) (V c main_v4)) := by
  show (cfg1.win 3).cut (grid1.coords t) ((dat1 (F := Ideal) V c).after 3 t) = _
  rw [after1_3]
  unfold out1_3
  rw [View.canon_unit_zero zero_offsets]
  simp only [View.ld_unit_zero (S := S256x4096) zero_offsets, View.ld_unit_zero (S := S4096x4096) zero_offsets,
    View.ld_unit_zero (S := S1x4096) zero_offsets]
  funext j
  obtain ⟨p, q, rfl⟩ : ∃ (p : Fin 256) (q : Fin 4096), j = ix2 p q := ⟨j 0, j 1, eq_ix2 j⟩
  obtain ⟨-, -, -, -, -, -, e6, e7⟩ := index_facts t
  have hrow : ((cfg1.win 3).blk t).view.emb (ix2 p q)
      = ix2 (⟨t.val * 256 + p.val, by have := point_lt t; have := p.isLt; omega⟩ : Fin 8192) q := by
    funext a; apply Fin.ext
    match a with
    | ⟨0, _⟩ => show win1_3.index t (0 : Fin 2) * 256 + 1 * p.val = t.val * 256 + p.val; rw [e6]; omega
    | ⟨1, _⟩ => show win1_3.index t (1 : Fin 2) * 4096 + 1 * q.val = q.val; rw [e7]; omega
  show k1_pay1 (F := Ideal) (iblk1 V c 0 t) (iblk1 V c 1 t) (iblk1 V c 2 t) (ix2 p q)
    = Cert.Spec.product (V c main_v0) (V c main_v10) (V c main_v4) (((cfg1.win 3).blk t).view.emb (ix2 p q))
  rw [hrow]
  refine (stored_at (iblk1 V c 0 t) (iblk1 V c 1 t) (iblk1 V c 2 t) p q).trans ?_
  rw [bias_block V c t q]
  unfold Cert.Spec.product
  refine congrArg (· + V c main_v4 (ix2 (0 : Fin 1) q)) (Finset.sum_congr rfl fun k _ => ?_)
  rw [tokens_block V c t p k, weight_block V c t q k]

/-- An index of the output is in point t's block iff each coordinate is in the block's range on its axis. -/
theorem mem_block (t : Fin cfg1.N) (i : S8192x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v11).slice (win1_3.rect t)).set ↔ _
  rw [View.set_slice_whole, Rect.mem_set_unit]
  exact Iff.rfl

/-- Row r of the output is in the block of point r / 256. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := index_onto ⟨(i 0).val / 256, by omega⟩
  have ht' : t.val = (i 0).val / 256 := ht
  obtain ⟨-, -, -, -, -, -, e6, e7⟩ := index_facts t
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; rw [e6]; omega
  | ⟨1, _⟩ => show win1_3.index t (1 : Fin 2) * 4096 ≤ (i 1).val ∧ (i 1).val < win1_3.index t (1 : Fin 2) * 4096 + 4096; rw [e7]; omega

/-- After the launch the output array is the product. -/
theorem product_final (c : Dev nD) :
    (dat1 (F := Ideal) V c).arrAt 3 cfg1.N = Cert.Spec.product (V c main_v0) (V c main_v10) (V c main_v4) :=
  (dat1 (F := Ideal) V c).arrAt_eq_of_cover 3 (Cert.Spec.product (V c main_v0) (V c main_v10) (V c main_v4))
    (fun t _ => flushed_eq V c t) covered

end Cert.KernelIdeal.Matmul

end
-- ==== Proof.Boundaries.lean ====
/-
  The arrays at the boundaries of @main, each as a term over the launch memory: what the reshapes and slices
  before the first launch hand it, what the first launch leaves (the two halves of the weight), their join,
  what the second launch leaves (the product), and the final reshape.
-/
import proofs.«409103_j2241972929044_3_alg».proof.Proof.Gen.KernelIdeal.Frame
import proofs.«409103_j2241972929044_3_alg».proof.Proof.Spec
import proofs.«409103_j2241972929044_3_alg».proof.Proof.DequantValue
import proofs.«409103_j2241972929044_3_alg».proof.Proof.MatmulValue
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Before the first launch -/

/-- The flattened tokens. -/
theorem tokens_entry (c : Dev nD) :
    V1 m ρ c main_v0 = shapeCast S8192x4096 (m ((c : Thread nD τ).loc main_arg0)) shapeCasts_S4x2048x4096_S8192x4096 := by
  show StableHlo.after hostOps0 (W0 m ρ c) (Proc.devRef .tc main_v0) = _
  after_results
  rfl

/-- The packed words as 2048 rows of 4096. -/
theorem words_entry (c : Dev nD) :
    V1 m ρ c main_v1 = shapeCast S2048x4096 (m ((c : Thread nD τ).loc main_arg1)) shapeCasts_S8388608_S2048x4096 := by
  show StableHlo.after hostOps0 (W0 m ρ c) (Proc.devRef .tc main_v1) = _
  after_results
  rfl

/-- The bias as one row. -/
theorem bias_entry (c : Dev nD) :
    V1 m ρ c main_v4 = shapeCast S1x4096 (m ((c : Thread nD τ).loc main_arg4)) shapeCasts_S4096_S1x4096 := by
  show StableHlo.after hostOps0 (W0 m ρ c) (Proc.devRef .tc main_v4) = _
  after_results
  rfl

/-- The scales of rows 0..2047, 64 groups a row. -/
theorem scale_hi_entry (c : Dev nD) :
    V1 m ρ c main_v5 = extractStridedSlice S2048x64 ![0, 0]
      (shapeCast S4096x64 (m ((c : Thread nD τ).loc main_arg2)) shapeCasts_S262144x1_S4096x64) slices_S4096x64_S2048x64_0_0 := by
  show StableHlo.after hostOps0 (W0 m ρ c) (Proc.devRef .tc main_v5) = _
  after_results
  rfl

/-- The scales of rows 2048..4095. -/
theorem scale_lo_entry (c : Dev nD) :
    V1 m ρ c main_v6 = extractStridedSlice S2048x64 ![2048, 0]
      (shapeCast S4096x64 (m ((c : Thread nD τ).loc main_arg2)) shapeCasts_S262144x1_S4096x64) slices_S4096x64_S2048x64_2048_0 := by
  show StableHlo.after hostOps0 (W0 m ρ c) (Proc.devRef .tc main_v6) = _
  after_results
  rfl

/-- The zero points of rows 0..2047. -/
theorem zero_hi_entry (c : Dev nD) :
    V1 m ρ c main_v7 = extractStridedSlice S2048x64 ![0, 0]
      (shapeCast S4096x64 (m ((c : Thread nD τ).loc main_arg3)) shapeCasts_S262144x1_S4096x64) slices_S4096x64_S2048x64_0_0 := by
  show StableHlo.after hostOps0 (W0 m ρ c) (Proc.devRef .tc main_v7) = _
  after_results
  rfl

/-- The zero points of rows 2048..4095. -/
theorem zero_lo_entry (c : Dev nD) :
    V1 m ρ c main_v8 = extractStridedSlice S2048x64 ![2048, 0]
      (shapeCast S4096x64 (m ((c : Thread nD τ).loc main_arg3)) shapeCasts_S262144x1_S4096x64) slices_S4096x64_S2048x64_2048_0 := by
  show StableHlo.after hostOps0 (W0 m ρ c) (Proc.devRef .tc main_v8) = _
  after_results
  rfl

/-! ## After the first launch -/

/-- Rows 0..2047 of the weight. -/
theorem hi_rows (c : Dev nD) :
    V2 m ρ c main_v9_0 = Cert.Spec.hiHalf (V1 m ρ c main_v1) (V1 m ρ c main_v5) (V1 m ρ c main_v7) :=
  (W2_arr m ρ c 5).trans (Cert.KernelIdeal.Dequant.hi_final (V1 m ρ) c)

/-- Rows 2048..4095 of the weight. -/
theorem lo_rows (c : Dev nD) :
    V2 m ρ c main_v9_1 = Cert.Spec.loHalf (V1 m ρ c main_v1) (V1 m ρ c main_v6) (V1 m ρ c main_v8) :=
  (W2_arr m ρ c 6).trans (Cert.KernelIdeal.Dequant.lo_final (V1 m ρ) c)

/-! ## Before the second launch -/

/-- The joined weight. -/
theorem weight_entry (c : Dev nD) :
    V3 m ρ c main_v10 = concatenate S4096x4096 0 [⟨S2048x4096, V2 m ρ c main_v9_0⟩, ⟨S2048x4096, V2 m ρ c main_v9_1⟩]
      concatenates_S2048x4096_S2048x4096_S4096x4096_d0 := by
  show StableHlo.after hostOps1 (W2 m ρ c) (Proc.devRef .tc main_v10) = _
  after_results

/-- The first launch and the join leave the flattened tokens alone. -/
theorem tokens_kept (c : Dev nD) : V3 m ρ c main_v0 = V1 m ρ c main_v0 := by
  show StableHlo.after hostOps1 (W2 m ρ c) (Proc.devRef .tc main_v0) = _
  after_results
  exact W2_of_ne m ρ c main_v0 (by decide)

/-- And the bias row. -/
theorem bias_kept (c : Dev nD) : V3 m ρ c main_v4 = V1 m ρ c main_v4 := by
  show StableHlo.after hostOps1 (W2 m ρ c) (Proc.devRef .tc main_v4) = _
  after_results
  exact W2_of_ne m ρ c main_v4 (by decide)

/-! ## After the second launch, and the result -/

/-- The product. -/
theorem product_rows (c : Dev nD) :
    V4 m ρ c main_v11 = Cert.Spec.product (V3 m ρ c main_v0) (V3 m ρ c main_v10) (V3 m ρ c main_v4) :=
  (W4_arr m ρ c 3).trans (Cert.KernelIdeal.Matmul.product_final (V3 m ρ) c)

/-- The result buffer: the product laid out 4 × 2048 × 4096. -/
theorem result_exit (c : Dev nD) :
    W5 m ρ c (Proc.devRef .tc main_v12) = shapeCast S4x2048x4096 (V4 m ρ c main_v11) shapeCasts_S8192x4096_S4x2048x4096 := by
  show StableHlo.after hostOps2 (W4 m ρ c) (Proc.devRef .tc main_v12) = _
  after_results
  rfl

end Cert.KernelIdeal.Boundaries

end
-- ==== Proof.ResultValue.lean ====
/-
  The result buffer is the specification's array of the launch memory.

  Entry (n, k) of the joined weight reads row n of the first launch's high half when n < 2048 and row n − 2048
  of its low half otherwise; the word it decodes sits at flat position n·4096 + k (resp. (n − 2048)·4096 + k)
  of the packed words, and its scale and zero point at row n·64 + k / 64 of the tables, because row n of the
  tables laid out 4096 × 64 holds the 64 groups of row n of the weight.  The shift by 4 is the same word on
  the vector unit and on the host.  The flattened token row 2048·b + s is (b, s), and the bias row's entry o
  is bias[o]; so the product at (2048·b + s, o) is the specification's result at (b, s, o).
-/
import proofs.«409103_j2241972929044_3_alg».proof.Proof.Boundaries
import Idealize.ShloMosaic.Lib.Pipeline.Value
import Idealize.ShloMosaic.Lib.ValueIdx
import Idealize.ShloMosaic.Lib.KernelVsHost

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.ValueIdx Cert.KernelIdeal.Boundaries

/-! ## The reshapes and slices, read at an index -/

/-- The packed words laid out 2048 × 4096, at (r, k): the word at flat position r·4096 + k. -/
theorem words_at (wq : S8388608.Idx → BitVec 32) (r : Fin 2048) (k : Fin 4096) :
    shapeCast S2048x4096 wq shapeCasts_S8388608_S2048x4096 (ix2 r k)
      = wq (ix1 (⟨r.val * 4096 + k.val, by have := k.isLt; have := r.isLt; omega⟩ : Fin 8388608)) :=
  shapeCast_apply wq shapeCasts_S8388608_S2048x4096 (ix2 r k) _ (by
    rewrite [Shape.rowMajor_val_one, Shape.rowMajor_val_two]
    show r.val * 4096 + k.val = r.val * 4096 + k.val
    rfl)

/-- A table laid out 4096 × 64, at (n, g): its row n·64 + g. -/
theorem table_at (tbl : S262144x1.Idx → EReal) (n : Fin 4096) (g : Fin 64) :
    shapeCast S4096x64 tbl shapeCasts_S262144x1_S4096x64 (ix2 n g)
      = tbl (ix2 (⟨n.val * 64 + g.val, by have := g.isLt; have := n.isLt; omega⟩ : Fin 262144) (0 : Fin 1)) :=
  shapeCast_apply tbl shapeCasts_S262144x1_S4096x64 (ix2 n g) _ (by
    rewrite [Shape.rowMajor_val_two, Shape.rowMajor_val_two]
    show (n.val * 64 + g.val) * 1 + 0 = n.val * 64 + g.val
    omega)

/-- The first 2048 rows of a table, at (r, g): the table's row r·64 + g. -/
theorem table_hi_at (tbl : S262144x1.Idx → EReal) (r : Fin 2048) (g : Fin 64) :
    extractStridedSlice S2048x64 ![0, 0] (shapeCast S4096x64 tbl shapeCasts_S262144x1_S4096x64) slices_S4096x64_S2048x64_0_0 (ix2 r g)
      = tbl (ix2 (⟨r.val * 64 + g.val, by have := g.isLt; have := r.isLt; omega⟩ : Fin 262144) (0 : Fin 1)) := by
  refine (extractStridedSlice_apply ![0, 0] _ slices_S4096x64_S2048x64_0_0 (ix2 r g)
    (ix2 (⟨r.val, by have := r.isLt; omega⟩ : Fin 4096) g) (fun a => ?_)).trans ?_
  · match a with
    | ⟨0, _⟩ => show r.val = 0 + r.val; omega
    | ⟨1, _⟩ => show g.val = 0 + g.val; omega
  · exact table_at tbl _ g

/-- The last 2048 rows of a table, at (r, g): the table's row (r + 2048)·64 + g. -/
theorem table_lo_at (tbl : S262144x1.Idx → EReal) (r : Fin 2048) (g : Fin 64) :
    extractStridedSlice S2048x64 ![2048, 0] (shapeCast S4096x64 tbl shapeCasts_S262144x1_S4096x64) slices_S4096x64_S2048x64_2048_0 (ix2 r g)
      = tbl (ix2 (⟨(r.val + 2048) * 64 + g.val, by have := g.isLt; have := r.isLt; omega⟩ : Fin 262144) (0 : Fin 1)) := by
  refine (extractStridedSlice_apply ![2048, 0] _ slices_S4096x64_S2048x64_2048_0 (ix2 r g)
    (ix2 (⟨r.val + 2048, by have := r.isLt; omega⟩ : Fin 4096) g) (fun a => ?_)).trans ?_
  · match a with
    | ⟨0, _⟩ => show r.val + 2048 = 2048 + r.val; omega
    | ⟨1, _⟩ => show g.val = 0 + g.val; omega
  · exact table_at tbl _ g

/-! ## The joined weight -/

/-- The two halves joined along the rows, at (n, k), over the packed words and the two tables: the
    specification's weight. -/
theorem joined_at (wq : S8388608.Idx → BitVec 32) (scale zero : S262144x1.Idx → EReal) (n k : Fin 4096) :
    concatenate S4096x4096 0
      [⟨S2048x4096, Cert.Spec.hiHalf (shapeCast S2048x4096 wq shapeCasts_S8388608_S2048x4096)
          (extractStridedSlice S2048x64 ![0, 0] (shapeCast S4096x64 scale shapeCasts_S262144x1_S4096x64) slices_S4096x64_S2048x64_0_0)
          (extractStridedSlice S2048x64 ![0, 0] (shapeCast S4096x64 zero shapeCasts_S262144x1_S4096x64) slices_S4096x64_S2048x64_0_0)⟩,
       ⟨S2048x4096, Cert.Spec.loHalf (shapeCast S2048x4096 wq shapeCasts_S8388608_S2048x4096)
          (extractStridedSlice S2048x64 ![2048, 0] (shapeCast S4096x64 scale shapeCasts_S262144x1_S4096x64) slices_S4096x64_S2048x64_2048_0)
          (extractStridedSlice S2048x64 ![2048, 0] (shapeCast S4096x64 zero shapeCasts_S262144x1_S4096x64) slices_S4096x64_S2048x64_2048_0)⟩]
      concatenates_S2048x4096_S2048x4096_S4096x4096_d0 (ix2 n k)
      = Cert.Spec.weight wq scale zero n k := by
  by_cases h : n.val < 2048
  · refine (concatenate_pair_apply_left 0 _ _ concatenates_S2048x4096_S2048x4096_S4096x4096_d0 (ix2 n k) rfl
      (ix2 (⟨n.val, h⟩ : Fin 2048) k) (fun b => ?_)).trans ?_
    · match b with
      | ⟨0, _⟩ => rfl
      | ⟨1, _⟩ => rfl
    · unfold Cert.Spec.hiHalf Cert.Spec.weight Cert.Spec.code
      rw [dif_pos h]
      show (FloatOps.sitofp (F := Ideal) .f32 (IntOp.andi (IntOp.shrsi .vector
              (shapeCast S2048x4096 wq shapeCasts_S8388608_S2048x4096 (ix2 (⟨n.val, h⟩ : Fin 2048) k)) 4#32) 15#32)
            - extractStridedSlice S2048x64 ![0, 0] (shapeCast S4096x64 zero shapeCasts_S262144x1_S4096x64) slices_S4096x64_S2048x64_0_0
                (ix2 (⟨n.val, h⟩ : Fin 2048) (Cert.Spec.colGroup k)))
          * extractStridedSlice S2048x64 ![0, 0] (shapeCast S4096x64 scale shapeCasts_S262144x1_S4096x64) slices_S4096x64_S2048x64_0_0
                (ix2 (⟨n.val, h⟩ : Fin 2048) (Cert.Spec.colGroup k)) = _
      rw [words_at, table_hi_at, table_hi_at, shrsi_unit .vector .host]
      rfl
  · have hn : n.val < 4096 := n.isLt
    refine (concatenate_pair_apply_right 0 _ _ concatenates_S2048x4096_S2048x4096_S4096x4096_d0 (ix2 n k) rfl rfl
      (ix2 (⟨n.val - 2048, by omega⟩ : Fin 2048) k) (fun b hb => ?_) ?_).trans ?_
    · match b with
      | ⟨0, _⟩ => exact absurd rfl hb
      | ⟨1, _⟩ => rfl
    · show n.val - 2048 + 2048 = n.val
      omega
    · unfold Cert.Spec.loHalf Cert.Spec.weight Cert.Spec.code
      rw [dif_neg h]
      show (FloatOps.sitofp (F := Ideal) .f32 (IntOp.andi
              (shapeCast S2048x4096 wq shapeCasts_S8388608_S2048x4096 (ix2 (⟨n.val - 2048, by omega⟩ : Fin 2048) k)) 15#32)
            - extractStridedSlice S2048x64 ![2048, 0] (shapeCast S4096x64 zero shapeCasts_S262144x1_S4096x64) slices_S4096x64_S2048x64_2048_0
                (ix2 (⟨n.val - 2048, by omega⟩ : Fin 2048) (Cert.Spec.colGroup k)))
          * extractStridedSlice S2048x64 ![2048, 0] (shapeCast S4096x64 scale shapeCasts_S262144x1_S4096x64) slices_S4096x64_S2048x64_2048_0
                (ix2 (⟨n.val - 2048, by omega⟩ : Fin 2048) (Cert.Spec.colGroup k)) = _
      rw [words_at, table_lo_at, table_lo_at]
      have hg : (⟨(n.val - 2048 + 2048) * 64 + (Cert.Spec.colGroup k).val, by
          have := (Cert.Spec.colGroup k).isLt; omega⟩ : Fin 262144) = Cert.Spec.group n k :=
        Fin.ext (by show (n.val - 2048 + 2048) * 64 + k.val / 64 = n.val * 64 + k.val / 64; omega)
      show (FloatOps.sitofp (F := Ideal) .f32 (IntOp.andi (wq (ix1 (⟨(n.val - 2048) * 4096 + k.val, _⟩ : Fin 8388608))) 15#32)
            - zero (ix2 (⟨(n.val - 2048 + 2048) * 64 + (Cert.Spec.colGroup k).val, _⟩ : Fin 262144) (0 : Fin 1)))
          * scale (ix2 (⟨(n.val - 2048 + 2048) * 64 + (Cert.Spec.colGroup k).val, _⟩ : Fin 262144) (0 : Fin 1)) = _
      rw [hg]

/-! ## The specification's arrays at coordinates -/

theorem product_at (X : S8192x4096.Idx → EReal) (W : S4096x4096.Idx → EReal) (B : S1x4096.Idx → EReal) (r : Fin 8192) (o : Fin 4096) :
    Cert.Spec.product X W B (ix2 r o) = (∑ k : Fin 4096, X (ix2 r k) * W (ix2 o k)) + B (ix2 (0 : Fin 1) o) := rfl

theorem out_at (x : S4x2048x4096.Idx → EReal) (wq : S8388608.Idx → BitVec 32) (scale zero : S262144x1.Idx → EReal)
    (bias : S4096.Idx → EReal) (b : Fin 4) (s : Fin 2048) (o : Fin 4096) :
    Cert.Spec.out x wq scale zero bias (ix3 b s o) = Cert.Spec.outAt x wq scale zero bias b s o := rfl

/-! ## The arrays the second launch reads, over the launch memory -/

variable (m : (ℓ : Loc nD τ sig) → Buf (Elt Ideal) ℓ) (ρ : Dev nD → PrngReg)

/-- The flattened tokens at row 2048·b + s are the tokens at (b, s). -/
theorem tokens_at (c : Dev nD) (b : Fin 4) (s : Fin 2048) (k : Fin 4096) :
    V3 m ρ c main_v0 (ix2 (⟨b.val * 2048 + s.val, by have := b.isLt; have := s.isLt; omega⟩ : Fin 8192) k)
      = m ((c : Thread nD τ).loc main_arg0) (ix3 b s k) := by
  rw [tokens_kept, tokens_entry]
  exact shapeCast_apply (s := S4x2048x4096) (t := S8192x4096) (m ((c : Thread nD τ).loc main_arg0))
    shapeCasts_S4x2048x4096_S8192x4096 _ (ix3 b s k) (by
    show (S4x2048x4096.rowMajor (ix3 b s k)).val = (S8192x4096.rowMajor (ix2 (⟨b.val * 2048 + s.val, _⟩ : Fin 8192) k)).val
    rewrite [Shape.rowMajor_val_three, Shape.rowMajor_val_two]
    show (b.val * 2048 + s.val) * 4096 + k.val = (b.val * 2048 + s.val) * 4096 + k.val
    rfl)

/-- The bias row's entry o is the bias at o. -/
theorem bias_at (c : Dev nD) (o : Fin 4096) :
    V3 m ρ c main_v4 (ix2 (0 : Fin 1) o) = m ((c : Thread nD τ).loc main_arg4) (ix1 o) := by
  rw [bias_kept, bias_entry]
  exact shapeCast_apply (s := S4096) (t := S1x4096) (m ((c : Thread nD τ).loc main_arg4)) shapeCasts_S4096_S1x4096 _ (ix1 o) (by
    show (S4096.rowMajor (ix1 o)).val = (S1x4096.rowMajor (ix2 (0 : Fin 1) o)).val
    rewrite [Shape.rowMajor_val_one, Shape.rowMajor_val_two]
    show o.val = 0 * 4096 + o.val
    omega)

/-- The joined weight the second launch reads is the specification's weight of the launch memory. -/
theorem weight_at (c : Dev nD) (n k : Fin 4096) :
    V3 m ρ c main_v10 (ix2 n k)
      = Cert.Spec.weight (m ((c : Thread nD τ).loc main_arg1)) (m ((c : Thread nD τ).loc main_arg2)) (m ((c : Thread nD τ).loc main_arg3)) n k := by
  rw [weight_entry, hi_rows, lo_rows, words_entry, scale_hi_entry, zero_hi_entry, scale_lo_entry, zero_lo_entry]
  exact joined_at _ _ _ n k

/-! ## The result -/

/-- The result buffer after the run is the specification's array of the launch memory. -/
theorem result_value (c : Dev nD) :
    W5 m ρ c (Proc.devRef .tc main_v12)
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [result_exit, product_rows]
  funext i
  obtain ⟨b, s, o, rfl⟩ : ∃ (b : Fin 4) (s : Fin 2048) (o : Fin 4096), i = ix3 b s o := ⟨i 0, i 1, i 2, eq_ix3 i⟩
  refine (shapeCast_apply _ shapeCasts_S8192x4096_S4x2048x4096 (ix3 b s o)
    (ix2 (⟨b.val * 2048 + s.val, by have := b.isLt; have := s.isLt; omega⟩ : Fin 8192) o) (by
      rewrite [Shape.rowMajor_val_two, Shape.rowMajor_val_three]
      show (b.val * 2048 + s.val) * 4096 + o.val = (b.val * 2048 + s.val) * 4096 + o.val
      rfl)).trans ?_
  refine (product_at _ _ _ _ o).trans ?_
  refine Eq.trans ?_ (out_at _ _ _ _ _ b s o).symm
  unfold Cert.Spec.outAt
  rw [bias_at m ρ c o]
  refine congrArg (fun z : EReal => z + (_ : EReal)) (Finset.sum_congr rfl fun k _ => ?_)
  rw [tokens_at m ρ c b s k, weight_at m ρ c o k]

end Cert.KernelIdeal.ResultValue

end
-- ==== Proof.ReferenceValue.lean ====
/-
  The reference, read one operation at a time at an index, is the specification: the concatenation of the high
  and the low codes is reshaped twice without moving anything in row-major order, so entry (n, k) of the weight
  is the code at flat position n·4096 + k — a high code when n < 2048 —, its group is row (n·4096 + k) / 64 =
  n·64 + k / 64 of the tables, and the contraction pairs x[b, s, k] with W[o, k].
-/
import proofs.«409103_j2241972929044_3_alg».proof.Proof.Gen.ReferenceIdeal.Run
import proofs.«409103_j2241972929044_3_alg».proof.Proof.Gen.ReferenceIdeal.Read
import proofs.«409103_j2241972929044_3_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## Positions

Entry (n, k) of the 4096 × 4096 matrix sits at flat position n·4096 + k.  Read as a 262144 × 64 array
that position is row (n·4096 + k) / 64 = n·64 + k / 64, column (n·4096 + k) % 64; read as a flat array
of 16 777 216 codes it is position n·4096 + k again. -/

/-- The flat position of entry (n, k) in row-major order. -/
abbrev flat (n k : Fin 4096) : Fin 16777216 :=
  ⟨n.val * 4096 + k.val, by have := n.isLt; have := k.isLt; omega⟩

/-- Through the two reshapes, entry (n, k) of the matrix is the code at flat position n·4096 + k. -/
theorem flat_pos (n k : Fin 4096) :
    Read.idx_main_v8 (Read.idx_main_v13 (ix2 n k)) = ix1 (flat n k) :=
  funext fun a => Fin.ext (by
    match a with
    | ⟨0, _⟩ =>
      show (n.val * 4096 + k.val) / 64 * 64 + (n.val * 4096 + k.val) % 64 = n.val * 4096 + k.val
      omega)

/-- The zero-point read for entry (n, k) is the one of its group. -/
theorem zero_pos (n k : Fin 4096) :
    Read.idx_main_v9 (Read.idx_main_v13 (ix2 n k)) = ix2 (Cert.Spec.group n k) (0 : Fin 1) :=
  funext fun a => Fin.ext (by
    match a with
    | ⟨0, _⟩ =>
      show (n.val * 4096 + k.val) / 64 = n.val * 64 + k.val / 64
      have := k.isLt
      omega
    | ⟨1, _⟩ => rfl)

/-- The scale read for entry (n, k) is the one of its group. -/
theorem scale_pos (n k : Fin 4096) :
    Read.idx_main_v11 (Read.idx_main_v13 (ix2 n k)) = ix2 (Cert.Spec.group n k) (0 : Fin 1) :=
  funext fun a => Fin.ext (by
    match a with
    | ⟨0, _⟩ =>
      show (n.val * 4096 + k.val) / 64 = n.val * 64 + k.val / 64
      have := k.isLt
      omega
    | ⟨1, _⟩ => rfl)

/-! ## The code at a flat position

The joined array holds every word's high code first and every word's low code after; position
n·4096 + k lies in the first half exactly when n < 2048. -/

theorem code_at (x1 : (⟨S8388608, .i32⟩ : BufTy).Contents (Elt Ideal)) (n k : Fin 4096) :
    Read.val_main_v6 (F := Ideal) x1 (ix1 (flat n k)) = Cert.Spec.code x1 n k := by
  have hk := k.isLt
  have hn := n.isLt
  unfold Read.val_main_v6 Cert.Spec.code
  by_cases h : n.val < 2048
  · rw [dif_pos h]
    refine (concatenate_pair_apply_left (0 : Fin S16777216.rank) (Read.val_main_v3 (F := Ideal) x1)
      (Read.val_main_v5 (F := Ideal) x1) _ (ix1 (flat n k)) rfl
      (ix1 (⟨n.val * 4096 + k.val, by omega⟩ : Fin 8388608))
      (fun b => match b with | ⟨0, _⟩ => rfl)).trans ?_
    rw [Read.val_main_v3_apply, Read.val_main_v1_apply, Read.val_main_v0_apply, Read.val_main_c_apply,
      Read.val_main_v2_apply, Read.val_main_c_0_apply]
  · rw [dif_neg h]
    refine (concatenate_pair_apply_right (0 : Fin S16777216.rank) (Read.val_main_v3 (F := Ideal) x1)
      (Read.val_main_v5 (F := Ideal) x1) _ (ix1 (flat n k)) rfl rfl
      (ix1 (⟨(n.val - 2048) * 4096 + k.val, by omega⟩ : Fin 8388608))
      (fun b hb => match b, hb with | ⟨0, _⟩, hb => absurd rfl hb)
      (by show (n.val - 2048) * 4096 + k.val + 8388608 = n.val * 4096 + k.val; omega)).trans ?_
    rw [Read.val_main_v5_apply, Read.val_main_v4_apply, Read.val_main_c_1_apply]

/-! ## The weight at (n, k) -/

theorem weight_at (x1 : (⟨S8388608, .i32⟩ : BufTy).Contents (Elt Ideal))
    (x2 x3 : (⟨S262144x1, .f32⟩ : BufTy).Contents (Elt Ideal)) (n k : Fin 4096) :
    Read.val_main_v13 (F := Ideal) x1 x2 x3 (ix2 n k) = Cert.Spec.weight x1 x2 x3 n k := by
  rw [Read.val_main_v13_apply, Read.val_main_v12_apply, Read.val_main_v10_apply, Read.val_main_v11_apply,
    Read.val_main_v9_apply, Read.val_main_v8_apply, Read.val_main_v7_apply, flat_pos, zero_pos, scale_pos,
    code_at]
  rfl

/-! ## The result at (b, s, o) -/

theorem lhs_pos (b : Fin 4) (s : Fin 2048) (o k : Fin 4096) :
    Read.lidx_main_v14 (ix3 b s o) k = ix3 b s k :=
  funext fun a => Fin.ext (by
    match a with
    | ⟨0, _⟩ => rfl
    | ⟨1, _⟩ => rfl
    | ⟨2, _⟩ => rfl)

theorem rhs_pos (b : Fin 4) (s : Fin 2048) (o k : Fin 4096) :
    Read.ridx_main_v14 (ix3 b s o) k = ix2 o k :=
  funext fun a => Fin.ext (by
    match a with
    | ⟨0, _⟩ => rfl
    | ⟨1, _⟩ => rfl)

theorem bias_pos (b : Fin 4) (s : Fin 2048) (o : Fin 4096) :
    Read.idx_main_v15 (Read.idx_main_v16 (ix3 b s o)) = ix1 o :=
  funext fun a => Fin.ext (by
    match a with
    | ⟨0, _⟩ => rfl)

theorem result_at (x0 : (⟨S4x2048x4096, .f32⟩ : BufTy).Contents (Elt Ideal)) (x1 : (⟨S8388608, .i32⟩ : BufTy).Contents (Elt Ideal))
    (x2 x3 : (⟨S262144x1, .f32⟩ : BufTy).Contents (Elt Ideal)) (x4 : (⟨S4096, .f32⟩ : BufTy).Contents (Elt Ideal))
    (b : Fin 4) (s : Fin 2048) (o : Fin 4096) :
    Read.val_main_v17 (F := Ideal) x0 x1 x2 x3 x4 (ix3 b s o) = Cert.Spec.outAt x0 x1 x2 x3 x4 b s o := by
  rw [Read.val_main_v17_apply, Read.val_main_v14_apply, Read.val_main_v16_apply, Read.val_main_v15_apply, bias_pos]
  unfold Cert.Spec.outAt
  show (∑ k : Fin 4096, x0 (Read.lidx_main_v14 (ix3 b s o) k) * Read.val_main_v13 (F := Ideal) x1 x2 x3 (Read.ridx_main_v14 (ix3 b s o) k)) + x4 (ix1 o) = _
  refine congrArg (· + x4 (ix1 o)) (Finset.sum_congr rfl fun k _ => ?_)
  rw [lhs_pos, rhs_pos, weight_at]

theorem result_eq (x0 : (⟨S4x2048x4096, .f32⟩ : BufTy).Contents (Elt Ideal)) (x1 : (⟨S8388608, .i32⟩ : BufTy).Contents (Elt Ideal))
    (x2 x3 : (⟨S262144x1, .f32⟩ : BufTy).Contents (Elt Ideal)) (x4 : (⟨S4096, .f32⟩ : BufTy).Contents (Elt Ideal)) :
    Cert.ReferenceIdeal.Read.val_main_v17 (F := Ideal) x0 x1 x2 x3 x4 = Cert.Spec.out x0 x1 x2 x3 x4 := by
  funext i
  rw [eq_ix3 i]
  exact result_at x0 x1 x2 x3 x4 (i 0) (i 1) (i 2)

end Cert.ReferenceIdeal.RefValue

end
-- ==== Proof.lean ====
/-
  A 4-bit grouped-quantized linear layer: the kernel unpacks the packed words into a 4096 × 4096 weight in one
  launch (two codes a word; weight = (code − zero[group]) · scale[group], 64 consecutive codes a group) and
  multiplies the 8192 flattened tokens by its transpose, adding the bias, in a second launch; the reference
  unpacks and dequantizes on the flat array of codes and contracts with an einsum.

  Over the extended reals both compute, at (b, s, o), Σ_k x[b, s, k] · W[o, k] + bias[o] with
  W[o, k] = (code(o, k) − zero[o·64 + k/64]) · scale[o·64 + k/64] (`Cert.Spec.out`): the two programs apply the
  same exact operations and differ only in how the arrays are laid out and tiled, so no algebraic law beyond
  the equality of terms is used and the finiteness of the inputs is never opened.

  The kernel's run is the generated frame's launch with the result buffer read in its post (ResultRun); what
  that buffer holds is read through the two launches and the host reshapes (MatmulValue, DequantValue,
  Boundaries, ResultValue); the reference's run and its operations read at an index are generated, and its
  last stage is the specification (ReferenceValue).  The idealization rewrote nothing, so `preserves` is
  trivial.
-/
import proofs.«409103_j2241972929044_3_alg».proof.Defs
import proofs.«409103_j2241972929044_3_alg».proof.Proof.Gen.Kernel
import proofs.«409103_j2241972929044_3_alg».proof.Proof.Gen.Kernel.Skeleton
import proofs.«409103_j2241972929044_3_alg».proof.Proof.Gen.Kernel.Launch
import proofs.«409103_j2241972929044_3_alg».proof.Proof.Gen.Kernel.Points
import proofs.«409103_j2241972929044_3_alg».proof.Proof.Gen.Kernel.Frame
import proofs.«409103_j2241972929044_3_alg».proof.Proof.Gen.KernelIdeal
import proofs.«409103_j2241972929044_3_alg».proof.Proof.Gen.KernelIdeal.Skeleton
import proofs.«409103_j2241972929044_3_alg».proof.Proof.Gen.KernelIdeal.Launch
import proofs.«409103_j2241972929044_3_alg».proof.Proof.Gen.KernelIdeal.Points
import proofs.«409103_j2241972929044_3_alg».proof.Proof.Gen.KernelIdeal.Frame
import proofs.«409103_j2241972929044_3_alg».proof.Proof.Gen.ReferenceIdeal
import proofs.«409103_j2241972929044_3_alg».proof.Proof.Gen.ReferenceIdeal.Run
import proofs.«409103_j2241972929044_3_alg».proof.Proof.Gen.ReferenceIdeal.Read
import proofs.«409103_j2241972929044_3_alg».proof.Proof.Gen.Pre_finite_inputs
import proofs.«409103_j2241972929044_3_alg».proof.Proof.ResultRun
import proofs.«409103_j2241972929044_3_alg».proof.Proof.ResultValue
import proofs.«409103_j2241972929044_3_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the specification's array of them. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.ResultValue.result_value m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
